-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x349 : S_.BroadcastsInDim S256x349 (![] : Fin 0 → Fin S256x349.rank)
  reducesTo_S256x349_S_d0_1 : S256x349.ReducesTo [0, 1] S_
  bcast_S_S349 : S_.BroadcastsInDim S349 (![] : Fin 0 → Fin S349.rank)
  reducesTo_S349_S_d0 : S349.ReducesTo [0] S_

variable [Facts]

def fn_part2 {F : FTy → Type} [FloatOps F] (main_arg8 : FVec F S256x349 .f32) (main_arg9 : FVec F S349 .f32) (main_v33 : IVec S_ 1) : IVec S_ 1 :=
  let main_v34 : FVec F S256x349 .f32 := Host.absf main_arg8
  let main_cst_12 : FVec F S_ .f32 := constant S_ .f32 0x7F800000#32
  let main_v35 : FVec F S256x349 .f32 := broadcastInDim S256x349 ![] bcast_S_S256x349 main_cst_12
  let main_v36 : IVec S256x349 1 := cmpf .olt main_v34 main_v35
  let main_c_13 : IVec S_ 1 := constantI S_ 1 1#1
  let main_v37 : IVec S_ 1 := (fun x v => Host.reduce IntOp.andi x v reducesTo_S256x349_S_d0_1 h_S_) main_v36 main_c_13
  let main_v38 : IVec S_ 1 := andi main_v33 main_v37
  let main_v39 : FVec F S349 .f32 := Host.absf main_arg9
  let main_cst_14 : FVec F S_ .f32 := constant S_ .f32 0x7F800000#32
  let main_v40 : FVec F S349 .f32 := broadcastInDim S349 ![] bcast_S_S349 main_cst_14
  let main_v41 : IVec S349 1 := cmpf .olt main_v39 main_v40
  let main_c_15 : IVec S_ 1 := constantI S_ 1 1#1
  let main_v42 : IVec S_ 1 := (fun x v => Host.reduce IntOp.andi x v reducesTo_S349_S_d0 h_S_) main_v41 main_c_15
  let main_v43 : IVec S_ 1 := andi main_v38 main_v42
  main_v43

def fn_part1 {F : FTy → Type} [FloatOps F] (main_arg5 : FVec F S256x256 .f32) (main_arg6 : FVec F S256x256 .f32) (main_arg7 : FVec F S256 .f32) (main_arg8 : FVec F S256x349 .f32) (main_arg9 : FVec F S349 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S100000x128 .f32) (main_arg1 : IVec S2x500000 32) (main_arg2 : FVec F S128x256 .f32) (main_arg3 : FVec F S128x256 .f32) (main_arg4 : FVec F S256 .f32) (main_arg5 : FVec F S256x256 .f32) (main_arg6 : FVec F S256x256 .f32) (main_arg7 : FVec F S256 .f32) (main_arg8 : FVec F S256x349 .f32) (main_arg9 : FVec F S349 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_v13 main_v16
-- ==== Kernel.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x256 : Shape := ⟨2, ![100000, 256]⟩
abbrev S2000x128 : Shape := ⟨2, ![2000, 128]⟩
abbrev S2000x256 : Shape := ⟨2, ![2000, 256]⟩
abbrev S1x256 : Shape := ⟨2, ![1, 256]⟩
abbrev S500000x256 : Shape := ⟨2, ![500000, 256]⟩
abbrev S100000x349 : Shape := ⟨2, ![100000, 349]⟩
abbrev S2000x349 : Shape := ⟨2, ![2000, 349]⟩
abbrev S1x349 : Shape := ⟨2, ![1, 349]⟩

abbrev nBuf : Space → Nat
  | .hbm => 67
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x349, .f32⟩
  | .hbm, ⟨9, _⟩ => ⟨S349, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S_, .f32⟩
  | .hbm, ⟨24, _⟩ => ⟨S100000x128, .f32⟩
  | .hbm, ⟨25, _⟩ => ⟨S500000x1, .i32⟩
  | .hbm, ⟨26, _⟩ => ⟨S100000x128, .f32⟩
  | .hbm, ⟨27, _⟩ => ⟨S_, .f32⟩
  | .hbm, ⟨28, _⟩ => ⟨S500000, .f32⟩
  | .hbm, ⟨29, _⟩ => ⟨S_, .f32⟩
  | .hbm, ⟨30, _⟩ => ⟨S100000, .f32⟩
  | .hbm, ⟨31, _⟩ => ⟨S500000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x256, .f32⟩
  | .hbm, ⟨40, _⟩ => ⟨S_, .i32⟩
  | .hbm, ⟨41, _⟩ => ⟨S500000, .i32⟩
  | .hbm, ⟨42, _⟩ => ⟨S500000, .i1⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000, .i32⟩
  | .hbm, ⟨47, _⟩ => ⟨S500000x1, .i32⟩
  | .hbm, ⟨48, _⟩ => ⟨S500000x256, .f32⟩
  | .hbm, ⟨49, _⟩ => ⟨S_, .f32⟩
  | .hbm, ⟨50, _⟩ => ⟨S100000x256, .f32⟩
  | .hbm, ⟨51, _⟩ => ⟨S500000x1, .i32⟩
  | .hbm, ⟨52, _⟩ => ⟨S100000x256, .f32⟩
  | .hbm, ⟨53, _⟩ => ⟨S_, .f32⟩
  | .hbm, ⟨54, _⟩ => ⟨S500000, .f32⟩
  | .hbm, ⟨55, _⟩ => ⟨S_, .f32⟩
  | .hbm, ⟨56, _⟩ => ⟨S100000, .f32⟩
  | .hbm, ⟨57, _⟩ => ⟨S500000x1, .i32⟩
  | .hbm, ⟨58, _⟩ => ⟨S100000, .f32⟩
  | .hbm, ⟨59, _⟩ => ⟨S_, .f32⟩
  | .hbm, ⟨60, _⟩ => ⟨S100000, .f32⟩
  | .hbm, ⟨61, _⟩ => ⟨S100000, .f32⟩
  | .hbm, ⟨62, _⟩ => ⟨S100000x1, .f32⟩
  | .hbm, ⟨63, _⟩ => ⟨S100000x256, .f32⟩
  | .hbm, ⟨64, _⟩ => ⟨S100000x256, .f32⟩
  | .hbm, ⟨65, _⟩ => ⟨S100000x256, .f32⟩
  | .hbm, ⟨66, _⟩ => ⟨S100000x349, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .f32⟩
  | .local _ .vmem, ⟨5, _⟩ => ⟨S128x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S256x349, .f32⟩
  | .local _ .vmem, ⟨21, _⟩ => ⟨S349, .f32⟩
  | .local _ .vmem, ⟨22, _⟩ => ⟨S2000x349, .f32⟩
  | .local _ .vmem, ⟨23, _⟩ => ⟨S2000x349, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_v24 : Ref sig .tc := ⟨.hbm, 41, rfl⟩
abbrev main_v25 : Ref sig .tc := ⟨.hbm, 42, rfl⟩
abbrev main_c_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x349 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S349 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x349 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S2000x256_S2000x256_0_0 : ∀ a, (![0, 0] : Fin 2 → Nat) a + S2000x256.size a ≤ S2000x256.size a
  h_S2000x256 : 0 < S2000x256.numel
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256x349_S256x349_0_0 : ∀ a, (![0, 0] : Fin 2 → Nat) a + S256x349.size a ≤ S256x349.size a
  h_S256x349 : 0 < S256x349.numel
  inb_S349_S349_0 : ∀ a, (![0] : Fin 1 → Nat) a + S349.size a ≤ S349.size a
  h_S349 : 0 < S349.numel
  shapeCasts_S349_S1x349 : S349.ShapeCasts S1x349
  broadcasts_S1x349_S2000x349 : S1x349.Broadcasts S2000x349
  inb_S2000x349_S2000x349_0_0 : ∀ a, (![0, 0] : Fin 2 → Nat) a + S2000x349.size a ≤ S2000x349.size a
  h_S2000x349 : 0 < S2000x349.numel
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S2000x128_S128x256_S2000x256_1_0_0_1_n_n_wf : DotDims.WF S2000x128 S128x256 S2000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S2000x256_S256x256_S2000x256_1_0_0_1_n_n_wf : DotDims.WF S2000x256 S256x256 S2000x256 [1] [0] [0] [1] [] []
  dot_S2000x256_S256x349_S2000x349_1_0_0_1_n_n_wf : DotDims.WF S2000x256 S256x349 S2000x349 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .f32 = 32 ∨ (Rect.block (s := S128x256) S128x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S100000x256.size a
  hwx0_5 : ∀ i : grid0.Coords, EltTy.bits .f32 = 32 ∨ (Rect.block (s := S100000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S100000x256.size a
  hwx1_0 : ∀ i : grid1.Coords, EltTy.bits .f32 = 32 ∨ (Rect.block (s := S100000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S100000x256.size a
  hwx1_1 : ∀ i : grid1.Coords, EltTy.bits .f32 = 32 ∨ (Rect.block (s := S100000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S100000x256.size a
  hwx1_5 : ∀ i : grid1.Coords, EltTy.bits .f32 = 32 ∨ (Rect.block (s := S100000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S100000x256.size a
  hwx2_0 : ∀ i : grid2.Coords, EltTy.bits .f32 = 32 ∨ (Rect.block (s := S100000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x349.size a ≤ S256x349.size a
  hwx2_1 : ∀ i : grid2.Coords, EltTy.bits .f32 = 32 ∨ (Rect.block (s := S256x349) S256x349.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S349.size a ≤ S349.size a
  hwx2_2 : ∀ i : grid2.Coords, EltTy.bits .f32 = 32 ∨ (Rect.block (s := S349) S349.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x349.size a ≤ S100000x349.size a
  hwx2_3 : ∀ i : grid2.Coords, EltTy.bits .f32 = 32 ∨ (Rect.block (s := S100000x349) S2000x349.size (cc2_transform_3 i) (hinb2_3 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x349_S2000x349_1_0_0_1_n_n : DotDims S2000x256 S256x349 S2000x349 where
  lhsContracting := [1]
  rhsContracting := [0]
  lhsNonContracting := [0]
  rhsNonContracting := [1]
  lhsBatch := []
  rhsBatch := []
  wf := dot_S2000x256_S256x349_S2000x349_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S256x349.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S349.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v44) S2000x349.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S128x256 : Shape := ⟨2, ![128, 256]⟩
abbrev S256 : Shape := ⟨1, ![256]⟩
abbrev S256x256 : Shape := ⟨2, ![256, 256]⟩
abbrev S256x349 : Shape := ⟨2, ![256, 349]⟩
abbrev S349 : Shape := ⟨1, ![349]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000 : Shape := ⟨1, ![100000]⟩
abbrev S100000x1 : Shape := ⟨2, ![100000, 1]⟩
abbrev S100000x256 : Shape := ⟨2, ![100000, 256]⟩
abbrev S1x256 : Shape := ⟨2, ![1, 256]⟩
abbrev S500000x256 : Shape := ⟨2, ![500000, 256]⟩
abbrev S100000x349 : Shape := ⟨2, ![100000, 349]⟩
abbrev S1x349 : Shape := ⟨2, ![1, 349]⟩

abbrev nBuf : Space → Nat
  | .hbm => 86
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x349, .f32⟩
  | .hbm, ⟨9, _⟩ => ⟨S349, .f32⟩
  | .hbm, ⟨10, _⟩ => ⟨S1x500000, .i32⟩
  | .hbm, ⟨11, _⟩ => ⟨S500000, .i32⟩
  | .hbm, ⟨12, _⟩ => ⟨S1x500000, .i32⟩
  | .hbm, ⟨13, _⟩ => ⟨S500000, .i32⟩
  | .hbm, ⟨14, _⟩ => ⟨S_, .i32⟩
  | .hbm, ⟨15, _⟩ => ⟨S500000, .i32⟩
  | .hbm, ⟨16, _⟩ => ⟨S500000, .i1⟩
  | .hbm, ⟨17, _⟩ => ⟨S_, .i32⟩
  | .hbm, ⟨18, _⟩ => ⟨S500000, .i32⟩
  | .hbm, ⟨19, _⟩ => ⟨S500000, .i32⟩
  | .hbm, ⟨20, _⟩ => ⟨S500000, .i32⟩
  | .hbm, ⟨21, _⟩ => ⟨S500000x1, .i32⟩
  | .hbm, ⟨22, _⟩ => ⟨S500000x128, .f32⟩
  | .hbm, ⟨23, _⟩ => ⟨S_, .f32⟩
  | .hbm, ⟨24, _⟩ => ⟨S100000x128, .f32⟩
  | .hbm, ⟨25, _⟩ => ⟨S500000x1, .i32⟩
  | .hbm, ⟨26, _⟩ => ⟨S100000x128, .f32⟩
  | .hbm, ⟨27, _⟩ => ⟨S_, .f32⟩
  | .hbm, ⟨28, _⟩ => ⟨S500000, .f32⟩
  | .hbm, ⟨29, _⟩ => ⟨S_, .f32⟩
  | .hbm, ⟨30, _⟩ => ⟨S100000, .f32⟩
  | .hbm, ⟨31, _⟩ => ⟨S500000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S100000x256, .f32⟩
  | .hbm, ⟨40, _⟩ => ⟨S100000x256, .f32⟩
  | .hbm, ⟨41, _⟩ => ⟨S100000x256, .f32⟩
  | .hbm, ⟨42, _⟩ => ⟨S1x256, .f32⟩
  | .hbm, ⟨43, _⟩ => ⟨S100000x256, .f32⟩
  | .hbm, ⟨44, _⟩ => ⟨S100000x256, .f32⟩
  | .hbm, ⟨45, _⟩ => ⟨S_, .f32⟩
  | .hbm, ⟨46, _⟩ => ⟨S100000x256, .f32⟩
  | .hbm, ⟨47, _⟩ => ⟨S100000x256, .f32⟩
  | .hbm, ⟨48, _⟩ => ⟨S_, .i32⟩
  | .hbm, ⟨49, _⟩ => ⟨S500000, .i32⟩
  | .hbm, ⟨50, _⟩ => ⟨S500000, .i1⟩
  | .hbm, ⟨51, _⟩ => ⟨S_, .i32⟩
  | .hbm, ⟨52, _⟩ => ⟨S500000, .i32⟩
  | .hbm, ⟨53, _⟩ => ⟨S500000, .i32⟩
  | .hbm, ⟨54, _⟩ => ⟨S500000, .i32⟩
  | .hbm, ⟨55, _⟩ => ⟨S500000x1, .i32⟩
  | .hbm, ⟨56, _⟩ => ⟨S500000x256, .f32⟩
  | .hbm, ⟨57, _⟩ => ⟨S_, .f32⟩
  | .hbm, ⟨58, _⟩ => ⟨S100000x256, .f32⟩
  | .hbm, ⟨59, _⟩ => ⟨S500000x1, .i32⟩
  | .hbm, ⟨60, _⟩ => ⟨S100000x256, .f32⟩
  | .hbm, ⟨61, _⟩ => ⟨S_, .f32⟩
  | .hbm, ⟨62, _⟩ => ⟨S500000, .f32⟩
  | .hbm, ⟨63, _⟩ => ⟨S_, .f32⟩
  | .hbm, ⟨64, _⟩ => ⟨S100000, .f32⟩
  | .hbm, ⟨65, _⟩ => ⟨S500000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x256, .f32⟩
  | .hbm, ⟨72, _⟩ => ⟨S100000x256, .f32⟩
  | .hbm, ⟨73, _⟩ => ⟨S100000x256, .f32⟩
  | .hbm, ⟨74, _⟩ => ⟨S100000x256, .f32⟩
  | .hbm, ⟨75, _⟩ => ⟨S100000x256, .f32⟩
  | .hbm, ⟨76, _⟩ => ⟨S1x256, .f32⟩
  | .hbm, ⟨77, _⟩ => ⟨S100000x256, .f32⟩
  | .hbm, ⟨78, _⟩ => ⟨S100000x256, .f32⟩
  | .hbm, ⟨79, _⟩ => ⟨S_, .f32⟩
  | .hbm, ⟨80, _⟩ => ⟨S100000x256, .f32⟩
  | .hbm, ⟨81, _⟩ => ⟨S100000x256, .f32⟩
  | .hbm, ⟨82, _⟩ => ⟨S100000x349, .f32⟩
  | .hbm, ⟨83, _⟩ => ⟨S1x349, .f32⟩
  | .hbm, ⟨84, _⟩ => ⟨S100000x349, .f32⟩
  | .hbm, ⟨85, _⟩ => ⟨S100000x349, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_c_4 : Ref sig .tc := ⟨.hbm, 48, rfl⟩
abbrev main_v30 : Ref sig .tc := ⟨.hbm, 49, rfl⟩
abbrev main_v31 : Ref sig .tc := ⟨.hbm, 50, rfl⟩
abbrev main_c_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S100000x1_S100000x256_0_1 : S100000x1.BroadcastsInDim S100000x256 (![0, 1] : Fin 2 → Fin S100000x256.rank)
  bcast_S349_S1x349_1 : S349.BroadcastsInDim S1x349 (![1] : Fin 1 → Fin S1x349.rank)
  bcast_S1x349_S100000x349_0_1 : S1x349.BroadcastsInDim S100000x349 (![0, 1] : Fin 2 → Fin S100000x349.rank)
  gather_S100000x128_S500000x1_S500000x128_1_0_n_n_0_1_1128_wf : GatherDims.WF S100000x128 S500000x1 S500000x128 [1] [0] [] [0] [] 1 ![1, 128]
  scatter_S100000x128_S500000x1_S500000x128_1_0_0_1_wf : ScatterDims.WF S100000x128 S500000x1 S500000x128 [1] [0] [0] 1
  scatter_S100000_S500000x1_S500000_n_0_0_1_wf : ScatterDims.WF S100000 S500000x1 S500000 [] [0] [0] 1
  dot_S100000x128_S128x256_S100000x256_1_0_0_1_n_n_wf : DotDims.WF S100000x128 S128x256 S100000x256 [1] [0] [0] [1] [] []
  gather_S100000x256_S500000x1_S500000x256_1_0_n_n_0_1_1256_wf : GatherDims.WF S100000x256 S500000x1 S500000x256 [1] [0] [] [0] [] 1 ![1, 256]
  scatter_S100000x256_S500000x1_S500000x256_1_0_0_1_wf : ScatterDims.WF S100000x256 S500000x1 S500000x256 [1] [0] [0] 1
  dot_S100000x256_S256x256_S100000x256_1_0_0_1_n_n_wf : DotDims.WF S100000x256 S256x256 S100000x256 [1] [0] [0] [1] [] []
  dot_S100000x256_S256x349_S100000x349_1_0_0_1_n_n_wf : DotDims.WF S100000x256 S256x349 S100000x349 [1] [0] [0] [1] [] []

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def scatter_S100000_S500000x1_S500000_n_0_0_1 : ScatterDims S100000 S500000x1 S500000 where
  updateWindowDims := []
  insertedWindowDims := [0]
  scatterDimsToOperandDims := [0]
  indexVectorDim := 1
  wf := scatter_S100000_S500000x1_S500000_n_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S100000x256_S500000x1_S500000x256_1_0_0_1 : ScatterDims S100000x256 S500000x1 S500000x256 where
  updateWindowDims := [1]
  insertedWindowDims := [0]
  scatterDimsToOperandDims := [0]
  indexVectorDim := 1
  wf := scatter_S100000x256_S500000x1_S500000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def dot_S100000x256_S256x349_S100000x349_1_0_0_1_n_n : DotDims S100000x256 S256x349 S100000x349 where
  lhsContracting := [1]
  rhsContracting := [0]
  lhsNonContracting := [0]
  rhsNonContracting := [1]
  lhsBatch := []
  rhsBatch := []
  wf := dot_S100000x256_S256x349_S100000x349_1_0_0_1_n_n_wf

class Facts : Prop extends Facts₀ where

variable [Facts]
-- ==== Proof.HostA.lean ====
import proofs.«151660_j54863912239768_1_alg».proof.Proof.Gen.KernelIdeal.Frame
import proofs.«151660_j54863912239768_1_alg».proof.Proof.Gen.ReferenceIdeal.Read
import Idealize.ShloMosaic.Lib.StableHlo.Run

/-!
# The host operations before the first region

Before the first region the program slices the edge list into its source and destination rows and
aggregates the node features along the edges: gather at the sources, scatter-add at the
destinations, divide by the clamped in-degree. These are the very operations the reference applies,
so the aggregated array the first region reads is the reference's stage of the same arguments, and
the argument arrays are as launched.
-/

set_option maxRecDepth 16384

noncomputable section

namespace Cert.KernelIdeal.HostA

open Cert.KernelIdeal Cert.KernelIdeal.Gen Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

set_option maxHeartbeats 1000000 in
/-- The aggregated features the first region reads are the reference's mean aggregation of the node
    features along the edges. -/
theorem agg1_eq (c : Dev nD) :
    V1 m ρ c main_v22 = val_main_v22 (F := Ideal) (m ((c : Thread nD τ).loc main_arg0)) (m ((c : Thread nD τ).loc main_arg1)) := by
  show StableHlo.after hostOps0 (W0 m ρ c) (Proc.devRef .tc main_v22) = _
  dsimp only [hostOps0]
  after_results
  rfl

/-- The source row of the edge list. -/
theorem src_eq (c : Dev nD) :
    W1 m ρ c (Proc.devRef .tc main_v1) = val_main_v1 (F := Ideal) (m ((c : Thread nD τ).loc main_arg1)) := by
  show StableHlo.after hostOps0 (W0 m ρ c) (Proc.devRef .tc main_v1) = _
  dsimp only [hostOps0]
  after_results
  rfl

/-- The destination row of the edge list. -/
theorem dst_eq (c : Dev nD) :
    W1 m ρ c (Proc.devRef .tc main_v3) = val_main_v3 (F := Ideal) (m ((c : Thread nD τ).loc main_arg1)) := by
  show StableHlo.after hostOps0 (W0 m ρ c) (Proc.devRef .tc main_v3) = _
  dsimp only [hostOps0]
  after_results
  rfl

/-- No host operation before the first region writes an argument array. -/
theorem arg0_eq (c : Dev nD) : V1 m ρ c main_arg0 = m ((c : Thread nD τ).loc main_arg0) := by
  show StableHlo.after hostOps0 (W0 m ρ c) (Proc.devRef .tc main_arg0) = _
  dsimp only [hostOps0]
  after_results
theorem arg2_eq (c : Dev nD) : V1 m ρ c main_arg2 = m ((c : Thread nD τ).loc main_arg2) := by
  show StableHlo.after hostOps0 (W0 m ρ c) (Proc.devRef .tc main_arg2) = _
  dsimp only [hostOps0]
  after_results
theorem arg3_eq (c : Dev nD) : V1 m ρ c main_arg3 = m ((c : Thread nD τ).loc main_arg3) := by
  show StableHlo.after hostOps0 (W0 m ρ c) (Proc.devRef .tc main_arg3) = _
  dsimp only [hostOps0]
  after_results
theorem arg4_eq (c : Dev nD) : V1 m ρ c main_arg4 = m ((c : Thread nD τ).loc main_arg4) := by
  show StableHlo.after hostOps0 (W0 m ρ c) (Proc.devRef .tc main_arg4) = _
  dsimp only [hostOps0]
  after_results

end Cert.KernelIdeal.HostA

end
-- ==== Proof.HostB.lean ====
import proofs.«151660_j54863912239768_1_alg».proof.Proof.HostA

/-!
# The host operations between the first two regions

Between the first and the second region the program aggregates the first layer's output along the
same edges, with the same operations as the reference. As a function of the array it aggregates
this is `agg2`; applied to the reference's first-layer stage it is the reference's own stage. The
first layer's output itself is not written by these operations, and the arrays the later regions
read from the arguments are as launched.
-/

set_option maxRecDepth 16384

noncomputable section

namespace Cert.KernelIdeal.HostB

open Cert.KernelIdeal Cert.KernelIdeal.Gen Idealize.ShloMosaic Idealize.ShloMosaic.TcCoe Idealize.SL.Sem Idealize.ShloMosaic.StableHlo
open Cert.ReferenceIdeal.Read Cert.KernelIdeal.HostA
open Idealize.ShloMosaic.Pipeline (Dat)

/-- Mean aggregation of 256-wide node features `h` along the edge list `e`: gather at the sources,
    scatter-add at the destinations, divide by the in-degree clamped below by one. -/
def agg2 (h : FVec Ideal Cert.ReferenceIdeal.S100000x256 .f32) (e : IVec Cert.ReferenceIdeal.S2x500000 32) :
    FVec Ideal Cert.ReferenceIdeal.S100000x256 .f32 :=
  Host.divf (F := Ideal) (φ := .f32)
    (Host.scatterAdd (F := Ideal) (φ := .f32) Cert.ReferenceIdeal.scatter_S100000x256_S500000x1_S500000x256_1_0_0_1 (val_main_v37 (F := Ideal)) (val_main_v38 (F := Ideal) e)
      (Host.gather (α := Ideal .f32) Cert.ReferenceIdeal.gather_S100000x256_S500000x1_S500000x256_1_0_n_n_0_1_1256 h (val_main_v35 (F := Ideal) e)))
    (val_main_v47 (F := Ideal) e)

/-- Applied to the reference's first-layer stage it is the reference's aggregated stage. -/
theorem agg2_stage (x0 : (⟨Cert.ReferenceIdeal.S100000x128, .f32⟩ : BufTy).Contents (Elt Ideal)) (x1 : (⟨Cert.ReferenceIdeal.S2x500000, .i32⟩ : BufTy).Contents (Elt Ideal))
    (x2 x3 : (⟨Cert.ReferenceIdeal.S128x256, .f32⟩ : BufTy).Contents (Elt Ideal)) (x4 : (⟨Cert.ReferenceIdeal.S256, .f32⟩ : BufTy).Contents (Elt Ideal)) :
    agg2 (val_main_v29 (F := Ideal) x0 x1 x2 x3 x4) x1 = val_main_v48 (F := Ideal) x0 x1 x2 x3 x4 := rfl

variable (m : (ℓ : Loc nD τ sig) → Buf (Elt Ideal) ℓ) (ρ : Dev nD → PrngReg)

/-- The first region leaves the edge rows as the first host stretch computed them. -/
theorem src2_eq (c : Dev nD) :
    W2 m ρ c (Proc.devRef .tc main_v1) = val_main_v1 (F := Ideal) (m ((c : Thread nD τ).loc main_arg1)) :=
  (W2_of_ne m ρ c main_v1 (by decide)).trans (src_eq m ρ c)
theorem dst2_eq (c : Dev nD) :
    W2 m ρ c (Proc.devRef .tc main_v3) = val_main_v3 (F := Ideal) (m ((c : Thread nD τ).loc main_arg1)) :=
  (W2_of_ne m ρ c main_v3 (by decide)).trans (dst_eq m ρ c)

set_option maxHeartbeats 1000000 in
/-- The aggregated array the second region reads is `agg2` of the first region's output. -/
theorem agg2_eq (c : Dev nD) :
    V3 m ρ c main_v42 = agg2 (V2 m ρ c main_v23) (m ((c : Thread nD τ).loc main_arg1)) := by
  show StableHlo.after hostOps1 (W2 m ρ c) (Proc.devRef .tc main_v42) = _
  dsimp only [hostOps1]
  after_results
  rw [src2_eq m ρ c, dst2_eq m ρ c]
  rfl

/-- The second host stretch does not write the first region's output. -/
theorem h1_kept (c : Dev nD) : V3 m ρ c main_v23 = V2 m ρ c main_v23 := by
  show StableHlo.after hostOps1 (W2 m ρ c) (Proc.devRef .tc main_v23) = _
  dsimp only [hostOps1]
  after_results

/-- The second layer's weights and bias, as the second region finds them, are as launched: an input
    window's array is not changed by its region, and nothing after it writes an argument. -/
theorem arg6_eq (c : Dev nD) : V3 m ρ c main_arg6 = m ((c : Thread nD τ).loc main_arg6) :=
  (A_eq1 (V3 m ρ) c 2).symm.trans (((dat1 (V3 m ρ) c).arrAt_in 2 rfl _).symm.trans
    ((W4_arr m ρ c 2).symm.trans ((W5_of_ne m ρ c main_arg6 (by decide)).symm.trans (W5_main_arg6 m ρ c))))
theorem arg5_eq (c : Dev nD) : V3 m ρ c main_arg5 = m ((c : Thread nD τ).loc main_arg5) :=
  (A_eq1 (V3 m ρ) c 3).symm.trans (((dat1 (V3 m ρ) c).arrAt_in 3 rfl _).symm.trans
    ((W4_arr m ρ c 3).symm.trans ((W5_of_ne m ρ c main_arg5 (by decide)).symm.trans (W5_main_arg5 m ρ c))))
theorem arg7_eq (c : Dev nD) : V3 m ρ c main_arg7 = m ((c : Thread nD τ).loc main_arg7) :=
  (A_eq1 (V3 m ρ) c 4).symm.trans (((dat1 (V3 m ρ) c).arrAt_in 4 rfl _).symm.trans
    ((W4_arr m ρ c 4).symm.trans ((W5_of_ne m ρ c main_arg7 (by decide)).symm.trans (W5_main_arg7 m ρ c))))

/-- The head's weights and bias, as the last region finds them, are as launched. -/
theorem arg8_eq (c : Dev nD) : V4 m ρ c main_arg8 = m ((c : Thread nD τ).loc main_arg8) :=
  (A_eq2 (V4 m ρ) c 1).symm.trans (((dat2 (V4 m ρ) c).arrAt_in 1 rfl _).symm.trans
    ((W5_arr m ρ c 1).symm.trans (W5_main_arg8 m ρ c)))
theorem arg9_eq (c : Dev nD) : V4 m ρ c main_arg9 = m ((c : Thread nD τ).loc main_arg9) :=
  (A_eq2 (V4 m ρ) c 2).symm.trans (((dat2 (V4 m ρ) c).arrAt_in 2 rfl _).symm.trans
    ((W5_arr m ρ c 2).symm.trans (W5_main_arg9 m ρ c)))

end Cert.KernelIdeal.HostB

end
-- ==== Proof.Layers.lean ====
import Idealize.ShloMosaic.PureOps.Ideal
import Idealize.ShloMosaic.PureOps.Ideal.Laws
import Idealize.ShloMosaic.Lib.ValueIdx

/-!
# The layers as functions of whole arrays, index by index

A graph-convolution layer maps a row of aggregated neighbour features `a` and the node's own
features `h` to `max (a · Wn + h · Ws + b, 0)`; the classification head maps a row `h` to
`h · W + b`. Both are written here entry by entry over the extended reals, each matrix product a
finite sum over the contracted axis. The sizes are parameters: the same two functions describe a
block of rows and the whole array.
-/

noncomputable section

namespace Cert.Layers

open Idealize.ShloMosaic

/-- Row `i 0`, column `k` of a left factor with `K` columns. -/
abbrev rowAt {R N K : Nat} (i : (⟨2, ![R, N]⟩ : Shape).Idx) (k : Fin K) : (⟨2, ![R, K]⟩ : Shape).Idx := fun a => match a with
  | ⟨0, _⟩ => ⟨(i 0).val, (i 0).isLt⟩
  | ⟨1, _⟩ => ⟨k.val, k.isLt⟩

/-- Row `k`, column `i 1` of a right factor with `K` rows. -/
abbrev colAt {R N K : Nat} (i : (⟨2, ![R, N]⟩ : Shape).Idx) (k : Fin K) : (⟨2, ![K, N]⟩ : Shape).Idx := fun a => match a with
  | ⟨0, _⟩ => ⟨k.val, k.isLt⟩
  | ⟨1, _⟩ => ⟨(i 1).val, (i 1).isLt⟩

/-- Entry `i 1` of a bias vector. -/
abbrev biasAt {R N : Nat} (i : (⟨2, ![R, N]⟩ : Shape).Idx) : (⟨1, ![N]⟩ : Shape).Idx := fun a => match a with
  | ⟨0, _⟩ => ⟨(i 1).val, (i 1).isLt⟩

/-- One entry of a matrix product: the sum over the contracted axis. -/
def dotAt {R K N : Nat} (l : (⟨2, ![R, K]⟩ : Shape).Idx → EReal) (r : (⟨2, ![K, N]⟩ : Shape).Idx → EReal)
    (i : (⟨2, ![R, N]⟩ : Shape).Idx) : EReal :=
  ∑ k : Fin K, l (rowAt i k) * r (colAt i k)

/-- The convolution layer: `max (a · Wn + h · Ws + b, 0)`, entry by entry. -/
def sage {R K N : Nat} (a h : (⟨2, ![R, K]⟩ : Shape).Idx → EReal) (wn ws : (⟨2, ![K, N]⟩ : Shape).Idx → EReal)
    (b : (⟨1, ![N]⟩ : Shape).Idx → EReal) : (⟨2, ![R, N]⟩ : Shape).Idx → EReal :=
  fun i => max (dotAt a wn i + dotAt h ws i + b (biasAt i)) 0

/-- The head: `h · W + b`, entry by entry. -/
def head {R K N : Nat} (h : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => dotAt h w i + b (biasAt i)

end Cert.Layers

end
-- ==== Proof.Region0.lean ====
import proofs.«151660_j54863912239768_1_alg».proof.Proof.Gen.KernelIdeal.Frame
import proofs.«151660_j54863912239768_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The first graph-convolution layer's combine step

Given the aggregated neighbour features `a` and the nodes' own features `h`, the region's body computes, on a
block of 2000 rows, `max (a · Wn + h · Ws + b, 0)`: two matrix products
into a zero accumulator, a bias row broadcast over the rows, and the maximum with zero. Read at an index over
the extended reals the body's value is the layer function of its blocks; each input block is its array read
where the output's block of rows says; and the 50 blocks of rows tile the output. So the output array ends
holding the layer function of the arrays the region finds.
-/

set_option maxRecDepth 16384

noncomputable section

namespace Cert.KernelIdeal.Region0

open Cert.KernelIdeal Cert.KernelIdeal.Gen Idealize.ShloMosaic Idealize.ShloMosaic.TcCoe Idealize.SL.Sem
open Idealize.ShloMosaic.Pipeline (Dat)

/-! ## The matrix product at an index -/

theorem lhs_axis0 (i : S2000x256.Idx) (q : dot_S2000x128_S128x256_S2000x256_1_0_0_1_n_n.contr.Idx) :
    (dot_S2000x128_S128x256_S2000x256_1_0_0_1_n_n.lhsIdx i q 0).val = (i 0).val := by
  unfold DotDims.lhsIdx
  rw [dif_neg (show ¬(0 : Fin S2000x128.rank) ∈ dot_S2000x128_S128x256_S2000x256_1_0_0_1_n_n.lhsBatch by decide), dif_pos (show (0 : Fin S2000x128.rank) ∈ dot_S2000x128_S128x256_S2000x256_1_0_0_1_n_n.lhsNonContracting by decide)]
  rfl
theorem lhs_axis1 (i : S2000x256.Idx) (q : dot_S2000x128_S128x256_S2000x256_1_0_0_1_n_n.contr.Idx) :
    (dot_S2000x128_S128x256_S2000x256_1_0_0_1_n_n.lhsIdx i q 1).val = (q ⟨0, by decide⟩).val :=
  dot_S2000x128_S128x256_S2000x256_1_0_0_1_n_n.lhsIdx_val_of_single rfl i q
theorem rhs_axis0 (i : S2000x256.Idx) (q : dot_S2000x128_S128x256_S2000x256_1_0_0_1_n_n.contr.Idx) :
    (dot_S2000x128_S128x256_S2000x256_1_0_0_1_n_n.rhsIdx i q 0).val = (q ⟨0, by decide⟩).val :=
  dot_S2000x128_S128x256_S2000x256_1_0_0_1_n_n.rhsIdx_val_of_single rfl i q
theorem rhs_axis1 (i : S2000x256.Idx) (q : dot_S2000x128_S128x256_S2000x256_1_0_0_1_n_n.contr.Idx) :
    (dot_S2000x128_S128x256_S2000x256_1_0_0_1_n_n.rhsIdx i q 1).val = (i 1).val := by
  unfold DotDims.rhsIdx
  rw [dif_neg (show ¬(1 : Fin S128x256.rank) ∈ dot_S2000x128_S128x256_S2000x256_1_0_0_1_n_n.rhsBatch by decide), dif_pos (show (1 : Fin S128x256.rank) ∈ dot_S2000x128_S128x256_S2000x256_1_0_0_1_n_n.rhsNonContracting by decide)]
  rfl

/-- The block product into the zero accumulator, entry by entry. -/
theorem matmul_zero_apply (l : FVec Ideal S2000x128 .bf16) (r : FVec Ideal S128x256 .bf16) (i : S2000x256.Idx) :
    matmul (F := Ideal) dot_S2000x128_S128x256_S2000x256_1_0_0_1_n_n none l r (constant (F := Ideal) S2000x256 .f32 0x00000000#32) i
      = Cert.Layers.dotAt (R := 2000) (K := 128) (N := 256) l r i := by
  unfold Cert.Layers.dotAt
  show FloatOps.matmul dot_S2000x128_S128x256_S2000x256_1_0_0_1_n_n none l r (constant (F := Ideal) S2000x256 .f32 0x00000000#32) i = _
  rw [Ideal.matmul_constant_zero_apply, ← Equiv.sum_comp (ValueIdx.contrEquiv1 dot_S2000x128_S128x256_S2000x256_1_0_0_1_n_n 128 rfl rfl).symm]
  refine Finset.sum_congr rfl fun k _ => ?_
  have hk := ValueIdx.contrEquiv1_symm_val dot_S2000x128_S128x256_S2000x256_1_0_0_1_n_n 128 rfl rfl k
  have el : dot_S2000x128_S128x256_S2000x256_1_0_0_1_n_n.lhsIdx i ((ValueIdx.contrEquiv1 dot_S2000x128_S128x256_S2000x256_1_0_0_1_n_n 128 rfl rfl).symm k) = Cert.Layers.rowAt (R := 2000) (N := 256) (K := 128) i k := funext fun a => Fin.ext (by
    match a with
    | ⟨0, _⟩ => exact lhs_axis0 _ _
    | ⟨1, _⟩ => exact (lhs_axis1 _ _).trans hk)
  have er : dot_S2000x128_S128x256_S2000x256_1_0_0_1_n_n.rhsIdx i ((ValueIdx.contrEquiv1 dot_S2000x128_S128x256_S2000x256_1_0_0_1_n_n 128 rfl rfl).symm k) = Cert.Layers.colAt (R := 2000) (N := 256) (K := 128) i k := funext fun a => Fin.ext (by
    match a with
    | ⟨0, _⟩ => exact (rhs_axis0 _ _).trans hk
    | ⟨1, _⟩ => exact rhs_axis1 _ _)
  rw [el, er]

/-! ## The body's value at an index -/

theorem bias_apply (b : Vec Ideal S256 .f32) (p : Fin 2000) (q : Fin 256) :
    broadcastTo S2000x256 (shapeCast S1x256 b shapeCasts_S256_S1x256) broadcasts_S1x256_S2000x256 (ValueIdx.ix2 p q) = b (ValueIdx.ix1 q) := by
  rw [ValueIdx.broadcastTo_1b_ab_apply, ValueIdx.shapeCast_a_1a_apply]

theorem biasAt_ix2 (p : Fin 2000) (q : Fin 256) :
    Cert.Layers.biasAt (R := 2000) (N := 256) (ValueIdx.ix2 p q) = ValueIdx.ix1 q :=
  funext fun a => Fin.ext (by match a with | ⟨0, _⟩ => rfl)

set_option maxHeartbeats 400000 in
/-- The body's payload is the layer of its loaded blocks, entry by entry. -/
theorem pay_apply (x0 x1 : Vec Ideal S2000x128 .f32) (x2 x3 : Vec Ideal S128x256 .f32) (x4 : Vec Ideal S256 .f32) (j : S2000x256.Idx) :
    k0_pay1 (F := Ideal) x0 x1 x2 x3 x4 j = Cert.Layers.sage (R := 2000) (K := 128) (N := 256) x0 x1 x2 x3 x4 j := by
  obtain ⟨p, q, rfl⟩ : ∃ (p : Fin 2000) (q : Fin 256), j = ValueIdx.ix2 p q := ⟨j 0, j 1, ValueIdx.eq_ix2 j⟩
  unfold k0_pay1
  rw [ValueIdx.maximumf_apply, ValueIdx.addf_apply, ValueIdx.addf_apply, matmul_zero_apply, matmul_zero_apply, bias_apply, shapeCast_self]
  unfold Cert.Layers.sage
  rw [biasAt_ix2]
  show max (Cert.Layers.dotAt x0 x2 (ValueIdx.ix2 p q) + Cert.Layers.dotAt x1 x3 (ValueIdx.ix2 p q) + x4 (ValueIdx.ix1 q)) (Ideal.ofBits .f32 0x00000000#32) = _
  rw [Ideal.ofBits_zero_f32]

/-! ## From the blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The index maps over the grid: the two feature windows move with the output's rows, the weights and the bias
    stay, and the output's block of rows is the point's own. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem iblk0_0_apply (c : Dev nD) (t : Fin cfg0.N) (y : S2000x128.Idx) :
    iblk0 (F := Ideal) V c 0 t y = V c main_v22 (((cfg0.win 0).blk t).view.emb y) := by
  unfold iblk0; rfl
theorem iblk0_1_apply (c : Dev nD) (t : Fin cfg0.N) (y : S2000x128.Idx) :
    iblk0 (F := Ideal) V c 1 t y = V c main_arg0 (((cfg0.win 1).blk t).view.emb y) := by
  unfold iblk0; rfl
theorem iblk0_2_apply (c : Dev nD) (t : Fin cfg0.N) (y : S128x256.Idx) :
    iblk0 (F := Ideal) V c 2 t y = V c main_arg3 (((cfg0.win 2).blk t).view.emb y) := by
  unfold iblk0; rfl
theorem iblk0_3_apply (c : Dev nD) (t : Fin cfg0.N) (y : S128x256.Idx) :
    iblk0 (F := Ideal) V c 3 t y = V c main_arg2 (((cfg0.win 3).blk t).view.emb y) := by
  unfold iblk0; rfl
theorem iblk0_4_apply (c : Dev nD) (t : Fin cfg0.N) (y : S256.Idx) :
    iblk0 (F := Ideal) V c 4 t y = V c main_arg4 (((cfg0.win 4).blk t).view.emb y) := by
  unfold iblk0; rfl

/-! ## Where each input block is read, against the output's block -/

theorem emb_row0 (t : Fin cfg0.N) (j : S2000x256.Idx) (k : Fin 128) :
    ((cfg0.win 0).blk t).view.emb (Cert.Layers.rowAt (R := 2000) (N := 256) (K := 128) j k)
      = Cert.Layers.rowAt (R := 100000) (N := 256) (K := 128) (((cfg0.win 5).blk t).view.emb j) k := by
  obtain ⟨e00, e01, e10, e11, e20, e21, e30, e31, e40, e50, e51⟩ := idx_facts t
  funext a; apply Fin.ext
  match a with
  | ⟨0, _⟩ => show win0_0.index t (0 : Fin 2) * 2000 + 1 * (j 0).val = win0_5.index t (0 : Fin 2) * 2000 + 1 * (j 0).val; omega
  | ⟨1, _⟩ => show win0_0.index t (1 : Fin 2) * 128 + 1 * k.val = k.val; omega

theorem emb_row1 (t : Fin cfg0.N) (j : S2000x256.Idx) (k : Fin 128) :
    ((cfg0.win 1).blk t).view.emb (Cert.Layers.rowAt (R := 2000) (N := 256) (K := 128) j k)
      = Cert.Layers.rowAt (R := 100000) (N := 256) (K := 128) (((cfg0.win 5).blk t).view.emb j) k := by
  obtain ⟨e00, e01, e10, e11, e20, e21, e30, e31, e40, e50, e51⟩ := idx_facts t
  funext a; apply Fin.ext
  match a with
  | ⟨0, _⟩ => show win0_1.index t (0 : Fin 2) * 2000 + 1 * (j 0).val = win0_5.index t (0 : Fin 2) * 2000 + 1 * (j 0).val; omega
  | ⟨1, _⟩ => show win0_1.index t (1 : Fin 2) * 128 + 1 * k.val = k.val; omega

theorem emb_col2 (t : Fin cfg0.N) (j : S2000x256.Idx) (k : Fin 128) :
    ((cfg0.win 2).blk t).view.emb (Cert.Layers.colAt (R := 2000) (N := 256) (K := 128) j k)
      = Cert.Layers.colAt (R := 100000) (N := 256) (K := 128) (((cfg0.win 5).blk t).view.emb j) k := by
  obtain ⟨e00, e01, e10, e11, e20, e21, e30, e31, e40, e50, e51⟩ := idx_facts t
  funext a; apply Fin.ext
  match a with
  | ⟨0, _⟩ => show win0_2.index t (0 : Fin 2) * 128 + 1 * k.val = k.val; omega
  | ⟨1, _⟩ => show win0_2.index t (1 : Fin 2) * 256 + 1 * (j 1).val = win0_5.index t (1 : Fin 2) * 256 + 1 * (j 1).val; omega

theorem emb_col3 (t : Fin cfg0.N) (j : S2000x256.Idx) (k : Fin 128) :
    ((cfg0.win 3).blk t).view.emb (Cert.Layers.colAt (R := 2000) (N := 256) (K := 128) j k)
      = Cert.Layers.colAt (R := 100000) (N := 256) (K := 128) (((cfg0.win 5).blk t).view.emb j) k := by
  obtain ⟨e00, e01, e10, e11, e20, e21, e30, e31, e40, e50, e51⟩ := idx_facts t
  funext a; apply Fin.ext
  match a with
  | ⟨0, _⟩ => show win0_3.index t (0 : Fin 2) * 128 + 1 * k.val = k.val; omega
  | ⟨1, _⟩ => show win0_3.index t (1 : Fin 2) * 256 + 1 * (j 1).val = win0_5.index t (1 : Fin 2) * 256 + 1 * (j 1).val; omega

theorem emb_bias4 (t : Fin cfg0.N) (j : S2000x256.Idx) :
    ((cfg0.win 4).blk t).view.emb (Cert.Layers.biasAt (R := 2000) (N := 256) j)
      = Cert.Layers.biasAt (R := 100000) (N := 256) (((cfg0.win 5).blk t).view.emb j) := by
  obtain ⟨e00, e01, e10, e11, e20, e21, e30, e31, e40, e50, e51⟩ := idx_facts t
  funext a; apply Fin.ext
  match a with
  | ⟨0, _⟩ => show win0_4.index t (0 : Fin 1) * 256 + 1 * (j 1).val = win0_5.index t (1 : Fin 2) * 256 + 1 * (j 1).val; omega

/-- The layer of the input blocks at a point is the layer of the whole arrays, read in the output's block. -/
theorem block_eq (c : Dev nD) (t : Fin cfg0.N) (j : S2000x256.Idx) :
    Cert.Layers.sage (R := 2000) (K := 128) (N := 256) (iblk0 (F := Ideal) V c 0 t) (iblk0 (F := Ideal) V c 1 t)
        (iblk0 (F := Ideal) V c 2 t) (iblk0 (F := Ideal) V c 3 t) (iblk0 (F := Ideal) V c 4 t) j
      = Cert.Layers.sage (R := 100000) (K := 128) (N := 256) (V c main_v22) (V c main_arg0) (V c main_arg3) (V c main_arg2)
        (V c main_arg4) (((cfg0.win 5).blk t).view.emb j) := by
  unfold Cert.Layers.sage Cert.Layers.dotAt
  refine congrArg (max · 0) ?_
  refine congrArg₂ (· + ·) (congrArg₂ (· + ·) (Finset.sum_congr rfl fun k _ => ?_) (Finset.sum_congr rfl fun k _ => ?_)) ?_
  · rw [iblk0_0_apply, iblk0_2_apply, emb_row0, emb_col2]
  · rw [iblk0_1_apply, iblk0_3_apply, emb_row1, emb_col3]
  · rw [iblk0_4_apply, emb_bias4]

/-- What a point writes back is its block of the layer of the whole arrays. -/
theorem flushed_eq (c : Dev nD) (t : Fin cfg0.N) :
    (dat0 (F := Ideal) V c).flushed 5 t = ((cfg0.win 5).blk t).view.read (Elt Ideal)
      (Cert.Layers.sage (R := 100000) (K := 128) (N := 256) (V c main_v22) (V c main_arg0) (V c main_arg3) (V c main_arg2) (V c main_arg4)) := by
  show (cfg0.win 5).cut (grid0.coords t) ((dat0 (F := Ideal) V c).after 5 t) = _
  rw [after0_5]
  unfold out0_5
  rw [View.canon_unit_zero hz2]
  simp only [View.ld_unit_zero (S := S2000x128) hz2, View.ld_unit_zero (S := S128x256) hz2, View.ld_unit_zero (S := S256) hz1]
  funext j
  exact (pay_apply _ _ _ _ _ j).trans (block_eq V c t j)

/-- An index of the array is in a point's block iff each coordinate is in the block's range on its axis. -/
theorem mem_blk (t : Fin cfg0.N) (i : S100000x256.Idx) :
    i ∈ ((cfg0.win 5).blk t).view.set ↔ ∀ a : Fin 2, win0_5.index t a * S2000x256.size a ≤ (i a).val ∧ (i a).val < win0_5.index t a * S2000x256.size a + S2000x256.size a := by
  show i ∈ ((View.whole main_v23).slice (win0_5.rect t)).set ↔ _
  rw [View.set_slice_whole, Rect.mem_set_unit]
  exact Iff.rfl

/-- Every row of the output is in the block of the point its row number names. -/
theorem cover (i : S100000x256.Idx) :
    ∃ t : Fin cfg0.N, (cfg0.win 5).flush t = true ∧ i ∈ ((cfg0.win 5).blk t).view.set := by
  have hi0 : (i 0).val < 100000 := (i 0).isLt
  have hi1 : (i 1).val < 256 := (i 1).isLt
  refine ⟨⟨(i 0).val / 2000, by show (i 0).val / 2000 < 50; omega⟩, flush0_5 _, ?_⟩
  rw [mem_blk]
  obtain ⟨e00, e01, e10, e11, e20, e21, e30, e31, e40, e50, e51⟩ := idx_facts ⟨(i 0).val / 2000, by show (i 0).val / 2000 < 50; omega⟩
  intro a
  match a with
  | ⟨0, _⟩ =>
    show win0_5.index ⟨(i 0).val / 2000, _⟩ (0 : Fin 2) * 2000 ≤ (i 0).val ∧ (i 0).val < win0_5.index ⟨(i 0).val / 2000, _⟩ (0 : Fin 2) * 2000 + 2000
    rw [e50]; show (i 0).val / 2000 * 2000 ≤ (i 0).val ∧ (i 0).val < (i 0).val / 2000 * 2000 + 2000; omega
  | ⟨1, _⟩ =>
    show win0_5.index ⟨(i 0).val / 2000, _⟩ (1 : Fin 2) * 256 ≤ (i 1).val ∧ (i 1).val < win0_5.index ⟨(i 0).val / 2000, _⟩ (1 : Fin 2) * 256 + 256
    rw [e51]; omega

/-- The output array after the region: the layer of the arrays the region finds. -/
theorem final (c : Dev nD) :
    (dat0 (F := Ideal) V c).arrAt 5 cfg0.N
      = Cert.Layers.sage (R := 100000) (K := 128) (N := 256) (V c main_v22) (V c main_arg0) (V c main_arg3) (V c main_arg2) (V c main_arg4) :=
  (dat0 (F := Ideal) V c).arrAt_eq_of_cover 5 _ (fun t _ => flushed_eq V c t) cover

end Cert.KernelIdeal.Region0

end
-- ==== Proof.Region1.lean ====
import proofs.«151660_j54863912239768_1_alg».proof.Proof.Gen.KernelIdeal.Frame
import proofs.«151660_j54863912239768_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The second graph-convolution layer: what its fifty blocks leave in the output array

Each grid point `t` reads rows `2000 t … 2000 t + 1999` of the aggregated features and of the first layer's
output, the two weight matrices and the bias whole, and writes `max (a · Wn + h · Ws + b, 0)` to the same
rows of the output. Here: the body's stored value at an index is that entry (each matrix product a sum over
the contracted axis), a block of an input read at an index is the array at the shifted index, the fifty
blocks cover all 100000 rows, and so the output array after the region is the layer of the whole arrays.
-/

set_option maxRecDepth 16384

noncomputable section

namespace Cert.KernelIdeal.Region1

open Cert.KernelIdeal Cert.KernelIdeal.Gen Idealize.ShloMosaic Idealize.ShloMosaic.TcCoe Idealize.SL.Sem
open Idealize.ShloMosaic.Pipeline (Dat)

/-! ## The body's stored value at an index -/

/-- The left factor's row coordinate at output index `i` is `i`'s row. -/
theorem lhs_0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

/-- The left factor's column coordinate is the contracted index. -/
theorem lhs_1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q

/-- The right factor's row coordinate is the contracted index. -/
theorem rhs_0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q

/-- The right factor's column coordinate at output index `i` is `i`'s column. -/
theorem rhs_1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The matrix product of a block of rows into the zero accumulator, at an index: the sum over the contracted axis. -/
theorem matmul_zero_apply {φ₁ φ₂ : FTy} (l : FVec Ideal S2000x256 φ₁) (r : FVec Ideal S256x256 φ₂) (i : S2000x256.Idx) :
    matmul (F := Ideal) dot_S2000x256_S256x256_S2000x256_1_0_0_1_n_n none l r (constant (F := Ideal) S2000x256 .f32 0x00000000#32) i
      = Cert.Layers.dotAt (R := 2000) (K := 256) (N := 256) l r i := by
  unfold Cert.Layers.dotAt
  refine (Ideal.matmul_constant_zero_apply dot_S2000x256_S256x256_S2000x256_1_0_0_1_n_n none l r i).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx i ((ValueIdx.contrEquiv1 dot_S2000x256_S256x256_S2000x256_1_0_0_1_n_n 256 rfl rfl).symm k) = Cert.Layers.rowAt (R := 2000) (N := 256) (K := 256) i k := funext fun a => Fin.ext (by
    match a with
    | ⟨0, _⟩ => exact lhs_0 _ _
    | ⟨1, _⟩ => exact (lhs_1 _ _).trans hk)
  have er : dot_S2000x256_S256x256_S2000x256_1_0_0_1_n_n.rhsIdx i ((ValueIdx.contrEquiv1 dot_S2000x256_S256x256_S2000x256_1_0_0_1_n_n 256 rfl rfl).symm k) = Cert.Layers.colAt (R := 2000) (N := 256) (K := 256) i k := funext fun a => Fin.ext (by
    match a with
    | ⟨0, _⟩ => exact (rhs_0 _ _).trans hk
    | ⟨1, _⟩ => exact rhs_1 _ _)
  rw [el, er]

/-- The bias, given a leading unit axis and repeated down the rows, at an index: the bias at the index's column. -/
theorem bias_apply (b : Vec Ideal S256 .f32) (i : S2000x256.Idx) :
    broadcastTo S2000x256 (shapeCast S1x256 b shapeCasts_S256_S1x256) broadcasts_S1x256_S2000x256 i
      = b (Cert.Layers.biasAt (R := 2000) (N := 256) i) := by
  refine (broadcastTo_apply (s := S1x256) (t := S2000x256) _ broadcasts_S1x256_S2000x256 i
    (ValueIdx.ix2 (n0 := 1) (n1 := 256) 0 ⟨(i 1).val, (i 1).isLt⟩) (fun a => ?_)).trans ?_
  · match a with
    | ⟨0, _⟩ => rfl
    | ⟨1, _⟩ => rfl
  · refine (shapeCast_addUnit_apply (n := 1) ![256] b shapeCasts_S256_S1x256 _).trans ?_
    exact congrArg b (funext fun a => match a with | ⟨0, _⟩ => rfl)

/-- THE BODY'S STORED VALUE at an index of the block: the layer of the loaded blocks at that index. -/
theorem pay_apply (x0 x1 : Vec Ideal S2000x256 .f32) (x2 x3 : Vec Ideal S256x256 .f32) (x4 : Vec Ideal S256 .f32) (j : S2000x256.Idx) :
    k1_pay1 (F := Ideal) x0 x1 x2 x3 x4 j
      = Cert.Layers.sage (R := 2000) (K := 256) (N := 256) x0 x1 x2 x3 x4 j := by
  unfold k1_pay1 Cert.Layers.sage
  rw [shapeCast_self x0, shapeCast_self x1]
  show max ((matmul (F := Ideal) dot_S2000x256_S256x256_S2000x256_1_0_0_1_n_n none (truncf (F := Ideal) .bf16 x0 bitsLt_bf16_f32) (truncf (F := Ideal) .bf16 x2 bitsLt_bf16_f32) (constant (F := Ideal) S2000x256 .f32 0x00000000#32) j
      + matmul (F := Ideal) dot_S2000x256_S256x256_S2000x256_1_0_0_1_n_n none (truncf (F := Ideal) .bf16 x1 bitsLt_bf16_f32) (truncf (F := Ideal) .bf16 x3 bitsLt_bf16_f32) (constant (F := Ideal) S2000x256 .f32 0x00000000#32) j)
      + broadcastTo S2000x256 (shapeCast S1x256 x4 shapeCasts_S256_S1x256) broadcasts_S1x256_S2000x256 j) (Ideal.ofBits .f32 0x00000000#32) = _
  rw [matmul_zero_apply, matmul_zero_apply, bias_apply, Ideal.ofBits_zero_f32]
  rfl

/-! ## From blocks to the array -/

variable (V : (c : Dev nD) → (b : Ref sig .tc) → Buf (Elt Ideal) ((c : Thread nD τ).loc b))

theorem zero2 : (![0, 0] : Fin 2 → Nat) = fun _ => 0 := funext fun a => by fin_cases a <;> rfl

theorem zero1 : (![0] : Fin 1 → Nat) = fun _ => 0 := funext fun a => by fin_cases a; rfl

/-- The block indices, decided over the fifty points: the two row-blocked inputs move with the output, whose block
    row is the point itself; the weights and the bias stay at their one block. -/
theorem idx_facts : ∀ t : Fin cfg1.N, win1_5.index t (0 : Fin 2) = t.val
    ∧ win1_5.index t (1 : Fin 2) = 0
    ∧ win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 1) = 0 :=
  (by decide +kernel : ∀ t : Fin grid1.N, _)

/-- A block of the aggregated features read at an index: the array at the same column, the row shifted by the block's rows. -/
theorem aggBlock_apply (c : Dev nD) (t : Fin cfg1.N) (y : S2000x256.Idx) (i : S100000x256.Idx)
    (h0 : (i 0).val = win1_5.index t (0 : Fin 2) * 2000 + (y 0).val) (h1 : (i 1).val = (y 1).val) :
    iblk1 (F := Ideal) V c 0 t y = V c main_v42 i := by
  obtain ⟨-, -, e0, e1, -⟩ := idx_facts t
  unfold iblk1
  show V c main_v42 (((cfg1.win 0).blk t).view.emb y) = V c main_v42 i
  refine congrArg (V c main_v42) (funext fun a => Fin.ext ?_)
  match a with
  | ⟨0, _⟩ => show win1_0.index t (0 : Fin 2) * 2000 + 1 * (y 0).val = (i 0).val; omega
  | ⟨1, _⟩ => show win1_0.index t (1 : Fin 2) * 256 + 1 * (y 1).val = (i 1).val; omega

/-- A block of the first layer's output read at an index, likewise. -/
theorem selfBlock_apply (c : Dev nD) (t : Fin cfg1.N) (y : S2000x256.Idx) (i : S100000x256.Idx)
    (h0 : (i 0).val = win1_5.index t (0 : Fin 2) * 2000 + (y 0).val) (h1 : (i 1).val = (y 1).val) :
    iblk1 (F := Ideal) V c 1 t y = V c main_v23 i := by
  obtain ⟨-, -, -, -, e0, e1, -⟩ := idx_facts t
  unfold iblk1
  show V c main_v23 (((cfg1.win 1).blk t).view.emb y) = V c main_v23 i
  refine congrArg (V c main_v23) (funext fun a => Fin.ext ?_)
  match a with
  | ⟨0, _⟩ => show win1_1.index t (0 : Fin 2) * 2000 + 1 * (y 0).val = (i 0).val; omega
  | ⟨1, _⟩ => show win1_1.index t (1 : Fin 2) * 256 + 1 * (y 1).val = (i 1).val; omega

/-- The neighbour weights' one block is the whole matrix. -/
theorem wnBlock_apply (c : Dev nD) (t : Fin cfg1.N) (y i : S256x256.Idx)
    (h0 : (i 0).val = (y 0).val) (h1 : (i 1).val = (y 1).val) :
    iblk1 (F := Ideal) V c 2 t y = V c main_arg6 i := by
  obtain ⟨-, -, -, -, -, -, e0, e1, -⟩ := idx_facts t
  unfold iblk1
  show V c main_arg6 (((cfg1.win 2).blk t).view.emb y) = V c main_arg6 i
  refine congrArg (V c main_arg6) (funext fun a => Fin.ext ?_)
  match a with
  | ⟨0, _⟩ => show win1_2.index t (0 : Fin 2) * 256 + 1 * (y 0).val = (i 0).val; omega
  | ⟨1, _⟩ => show win1_2.index t (1 : Fin 2) * 256 + 1 * (y 1).val = (i 1).val; omega

/-- The self weights' one block is the whole matrix. -/
theorem wsBlock_apply (c : Dev nD) (t : Fin cfg1.N) (y i : S256x256.Idx)
    (h0 : (i 0).val = (y 0).val) (h1 : (i 1).val = (y 1).val) :
    iblk1 (F := Ideal) V c 3 t y = V c main_arg5 i := by
  obtain ⟨-, -, -, -, -, -, -, -, e0, e1, -⟩ := idx_facts t
  unfold iblk1
  show V c main_arg5 (((cfg1.win 3).blk t).view.emb y) = V c main_arg5 i
  refine congrArg (V c main_arg5) (funext fun a => Fin.ext ?_)
  match a with
  | ⟨0, _⟩ => show win1_3.index t (0 : Fin 2) * 256 + 1 * (y 0).val = (i 0).val; omega
  | ⟨1, _⟩ => show win1_3.index t (1 : Fin 2) * 256 + 1 * (y 1).val = (i 1).val; omega

/-- The bias's one block is the whole vector. -/
theorem biasBlock_apply (c : Dev nD) (t : Fin cfg1.N) (y i : S256.Idx) (h0 : (i 0).val = (y 0).val) :
    iblk1 (F := Ideal) V c 4 t y = V c main_arg7 i := by
  obtain ⟨-, -, -, -, -, -, -, -, -, -, e0⟩ := idx_facts t
  unfold iblk1
  show V c main_arg7 (((cfg1.win 4).blk t).view.emb y) = V c main_arg7 i
  refine congrArg (V c main_arg7) (funext fun a => Fin.ext ?_)
  match a with
  | ⟨0, _⟩ => show win1_4.index t (0 : Fin 1) * 256 + 1 * (y 0).val = (i 0).val; omega

/-- The layer of the blocks at a point, at an index of the block, is the layer of the whole arrays at the index
    shifted by the block's rows. -/
theorem sage_blocks (c : Dev nD) (t : Fin cfg1.N) (j : S2000x256.Idx) (i : S100000x256.Idx)
    (h0 : (i 0).val = win1_5.index t (0 : Fin 2) * 2000 + (j 0).val) (h1 : (i 1).val = (j 1).val) :
    Cert.Layers.sage (R := 2000) (K := 256) (N := 256) (iblk1 (F := Ideal) V c 0 t) (iblk1 (F := Ideal) V c 1 t)
        (iblk1 (F := Ideal) V c 2 t) (iblk1 (F := Ideal) V c 3 t) (iblk1 (F := Ideal) V c 4 t) j
      = Cert.Layers.sage (R := 100000) (K := 256) (N := 256) (V c main_v42) (V c main_v23) (V c main_arg6) (V c main_arg5) (V c main_arg7) i := by
  unfold Cert.Layers.sage Cert.Layers.dotAt
  refine congrArg₂ max (congrArg₂ (· + ·) (congrArg₂ (· + ·) (Finset.sum_congr rfl fun k _ => ?_) (Finset.sum_congr rfl fun k _ => ?_)) ?_) rfl
  · exact congrArg₂ (· * ·) (aggBlock_apply V c t _ _ h0 rfl) (wnBlock_apply V c t _ _ rfl h1)
  · exact congrArg₂ (· * ·) (selfBlock_apply V c t _ _ h0 rfl) (wsBlock_apply V c t _ _ rfl h1)
  · exact biasBlock_apply V c t _ _ h1

/-- WHAT POINT `t` WRITES BACK is block `t` of the layer of the arrays as the region finds them. -/
theorem flushed_eq (c : Dev nD) (t : Fin cfg1.N) :
    (dat1 (F := Ideal) V c).flushed 5 t = ((cfg1.win 5).blk t).view.read (Elt Ideal)
      (Cert.Layers.sage (R := 100000) (K := 256) (N := 256) (V c main_v42) (V c main_v23) (V c main_arg6) (V c main_arg5) (V c main_arg7)) := by
  show (cfg1.win 5).cut (grid1.coords t) ((dat1 (F := Ideal) V c).after 5 t) = _
  rw [after1_5]
  unfold out1_5
  rw [View.canon_unit_zero zero2]
  simp only [View.ld_unit_zero (S := S2000x256) zero2, View.ld_unit_zero (S := S256x256) zero2, View.ld_unit_zero (S := S256) zero1]
  funext j
  show k1_pay1 (F := Ideal) (iblk1 V c 0 t) (iblk1 V c 1 t) (iblk1 V c 2 t) (iblk1 V c 3 t) (iblk1 V c 4 t) j
    = Cert.Layers.sage (R := 100000) (K := 256) (N := 256) (V c main_v42) (V c main_v23) (V c main_arg6) (V c main_arg5) (V c main_arg7) (((cfg1.win 5).blk t).view.emb j)
  refine (pay_apply _ _ _ _ _ j).trans ?_
  refine sage_blocks V c t j _ ?_ ?_
  · show win1_5.index t (0 : Fin 2) * 2000 + 1 * (j 0).val = win1_5.index t (0 : Fin 2) * 2000 + (j 0).val
    omega
  · obtain ⟨-, e1, -⟩ := idx_facts t
    show win1_5.index t (1 : Fin 2) * 256 + 1 * (j 1).val = (j 1).val
    omega

/-- An index of the output array is in point `t`'s block iff each coordinate is in the block's range on its axis. -/
theorem mem_blk (t : Fin cfg1.N) (i : S100000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v43).slice (win1_5.rect t)).set ↔ _
  rw [View.set_slice_whole, Rect.mem_set_unit]
  exact Iff.rfl

/-- Every row `r` of the output is in the block of the point `r / 2000`. -/
theorem cover (i : S100000x256.Idx) :
    ∃ t : Fin cfg1.N, (cfg1.win 5).flush t = true ∧ i ∈ ((cfg1.win 5).blk t).view.set := by
  have hi0 : (i 0).val < 100000 := (i 0).isLt
  have hi1 : (i 1).val < 256 := (i 1).isLt
  have hN : cfg1.N = 50 := by decide
  have hlt : (i 0).val / 2000 < cfg1.N := by rw [hN]; omega
  obtain ⟨e0, e1, -⟩ := idx_facts ⟨(i 0).val / 2000, hlt⟩
  have e0' : win1_5.index ⟨(i 0).val / 2000, hlt⟩ (0 : Fin 2) = (i 0).val / 2000 := e0
  refine ⟨⟨(i 0).val / 2000, hlt⟩, flush1_5 _, ?_⟩
  rw [mem_blk]
  intro a
  match a with
  | ⟨0, _⟩ =>
    show win1_5.index ⟨(i 0).val / 2000, hlt⟩ (0 : Fin 2) * 2000 ≤ (i 0).val ∧ (i 0).val < win1_5.index ⟨(i 0).val / 2000, hlt⟩ (0 : Fin 2) * 2000 + 2000
    omega
  | ⟨1, _⟩ =>
    show win1_5.index ⟨(i 0).val / 2000, hlt⟩ (1 : Fin 2) * 256 ≤ (i 1).val ∧ (i 1).val < win1_5.index ⟨(i 0).val / 2000, hlt⟩ (1 : Fin 2) * 256 + 256
    omega

/-- THE OUTPUT ARRAY after the region: the layer of the arrays as the region finds them. -/
theorem final (c : Dev nD) :
    (dat1 (F := Ideal) V c).arrAt 5 cfg1.N
      = Cert.Layers.sage (R := 100000) (K := 256) (N := 256) (V c main_v42) (V c main_v23) (V c main_arg6) (V c main_arg5) (V c main_arg7) :=
  (dat1 (F := Ideal) V c).arrAt_eq_of_cover 5 _ (fun t _ => flushed_eq V c t) cover

end Cert.KernelIdeal.Region1

end
-- ==== Proof.Region2.lean ====
import proofs.«151660_j54863912239768_1_alg».proof.Proof.Gen.KernelIdeal.Frame
import proofs.«151660_j54863912239768_1_alg».proof.Proof.Layers
import Idealize.ShloMosaic.Lib.Pipeline.Value
import Idealize.ShloMosaic.Lib.ValueIdx
import Idealize.ShloMosaic.Lib.ValueLayout
import Idealize.ShloMosaic.PureOps.Ideal.Laws

/-!
# The head region: the output array is the head of the arrays the region finds

Fifty grid points, each over a block of 2000 rows. At a point the body computes, from a block `x0` of the second
layer's output, the whole weights `x1` and the whole bias `x2`, the block `x0 · x1 + x2`: one matrix product into a zero
accumulator, a sum over the 256 contracted coordinates, and the bias added to every row. The blocks tile the output, so the
array the region leaves is that function of the whole arrays, entry by entry.
-/

set_option maxRecDepth 16384

noncomputable section

namespace Cert.KernelIdeal.Region2

open Cert.KernelIdeal Cert.KernelIdeal.Gen Idealize.ShloMosaic Idealize.ShloMosaic.TcCoe Idealize.SL.Sem
open Idealize.ShloMosaic.Pipeline (Dat)

/-! ## The head's matrix product: where the contraction reads its two factors -/

/-- The left factor is read in the output's row … -/
theorem lhs_head_0 (i : S2000x349.Idx) (q : dot_S2000x256_S256x349_S2000x349_1_0_0_1_n_n.contr.Idx) :
    (dot_S2000x256_S256x349_S2000x349_1_0_0_1_n_n.lhsIdx i q 0).val = (i 0).val := by
  unfold DotDims.lhsIdx
  rw [dif_neg (show ¬(0 : Fin S2000x256.rank) ∈ dot_S2000x256_S256x349_S2000x349_1_0_0_1_n_n.lhsBatch by decide), dif_pos (show (0 : Fin S2000x256.rank) ∈ dot_S2000x256_S256x349_S2000x349_1_0_0_1_n_n.lhsNonContracting by decide)]
  rfl
/-- … at the contracted column; -/
theorem lhs_head_1 (i : S2000x349.Idx) (q : dot_S2000x256_S256x349_S2000x349_1_0_0_1_n_n.contr.Idx) :
    (dot_S2000x256_S256x349_S2000x349_1_0_0_1_n_n.lhsIdx i q 1).val = (q ⟨0, by decide⟩).val :=
  dot_S2000x256_S256x349_S2000x349_1_0_0_1_n_n.lhsIdx_val_of_single rfl i q
/-- the right factor at the contracted row … -/
theorem rhs_head_0 (i : S2000x349.Idx) (q : dot_S2000x256_S256x349_S2000x349_1_0_0_1_n_n.contr.Idx) :
    (dot_S2000x256_S256x349_S2000x349_1_0_0_1_n_n.rhsIdx i q 0).val = (q ⟨0, by decide⟩).val :=
  dot_S2000x256_S256x349_S2000x349_1_0_0_1_n_n.rhsIdx_val_of_single rfl i q
/-- … in the output's column. -/
theorem rhs_head_1 (i : S2000x349.Idx) (q : dot_S2000x256_S256x349_S2000x349_1_0_0_1_n_n.contr.Idx) :
    (dot_S2000x256_S256x349_S2000x349_1_0_0_1_n_n.rhsIdx i q 1).val = (i 1).val := by
  unfold DotDims.rhsIdx
  rw [dif_neg (show ¬(1 : Fin S256x349.rank) ∈ dot_S2000x256_S256x349_S2000x349_1_0_0_1_n_n.rhsBatch by decide), dif_pos (show (1 : Fin S256x349.rank) ∈ dot_S2000x256_S256x349_S2000x349_1_0_0_1_n_n.rhsNonContracting by decide)]
  rfl

/-! ## The body's payload, entry by entry -/

/-- The row vector `[1, 349]` the bias is cast to, read where the broadcast reads it for output column `j 1`. -/
abbrev biasRow (j : S2000x349.Idx) : S1x349.Idx := fun a => match a with
  | ⟨0, _⟩ => ⟨0, Nat.zero_lt_one⟩
  | ⟨1, _⟩ => ⟨(j 1).val, (j 1).isLt⟩

/-- The product into the zero accumulator is the sum over the 256 contracted coordinates. -/
theorem matmul_apply (l : FVec Ideal S2000x256 .bf16) (r : FVec Ideal S256x349 .bf16) (j : S2000x349.Idx) :
    matmul (F := Ideal) dot_S2000x256_S256x349_S2000x349_1_0_0_1_n_n none l r (constant (F := Ideal) S2000x349 .f32 0x00000000#32) j
      = ∑ k : Fin 256, l (Cert.Layers.rowAt j k) * r (Cert.Layers.colAt j k) := by
  refine (Ideal.matmul_constant_zero_apply dot_S2000x256_S256x349_S2000x349_1_0_0_1_n_n none l r j).trans ?_
  rw [← Equiv.sum_comp (ValueIdx.contrEquiv1 dot_S2000x256_S256x349_S2000x349_1_0_0_1_n_n 256 rfl rfl).symm]
  refine Finset.sum_congr rfl fun k _ => ?_
  have hk := ValueIdx.contrEquiv1_symm_val dot_S2000x256_S256x349_S2000x349_1_0_0_1_n_n 256 rfl rfl k
  have el : dot_S2000x256_S256x349_S2000x349_1_0_0_1_n_n.lhsIdx j ((ValueIdx.contrEquiv1 dot_S2000x256_S256x349_S2000x349_1_0_0_1_n_n 256 rfl rfl).symm k) = Cert.Layers.rowAt j k := funext fun a => Fin.ext (by
    match a with
    | ⟨0, _⟩ => exact lhs_head_0 _ _
    | ⟨1, _⟩ => exact (lhs_head_1 _ _).trans hk)
  have er : dot_S2000x256_S256x349_S2000x349_1_0_0_1_n_n.rhsIdx j ((ValueIdx.contrEquiv1 dot_S2000x256_S256x349_S2000x349_1_0_0_1_n_n 256 rfl rfl).symm k) = Cert.Layers.colAt j k := funext fun a => Fin.ext (by
    match a with
    | ⟨0, _⟩ => exact (rhs_head_0 _ _).trans hk
    | ⟨1, _⟩ => exact rhs_head_1 _ _)
  rw [el, er]

/-- The bias, cast to a row and broadcast down the 2000 rows, reads entry `j 1` of the vector. -/
theorem bias_apply (b : S349.Idx → EReal) (j : S2000x349.Idx) :
    broadcastTo S2000x349 (shapeCast S1x349 b shapeCasts_S349_S1x349) broadcasts_S1x349_S2000x349 j = b (Cert.Layers.biasAt j) := by
  refine (broadcastTo_apply _ broadcasts_S1x349_S2000x349 j (biasRow j) (fun a => ?_)).trans ?_
  · match a with
    | ⟨0, _⟩ => rfl
    | ⟨1, _⟩ => rfl
  · refine (shapeCast_addUnit_apply ![349] b shapeCasts_S349_S1x349 (biasRow j)).trans ?_
    refine congrArg b (funext fun a => Fin.ext ?_)
    match a with
    | ⟨0, _⟩ => rfl

/-- The payload at `j` is the head of the three loaded blocks at `j`: `x0 · x1 + x2`. -/
theorem pay_apply (x0 : Vec Ideal S2000x256 .f32) (x1 : Vec Ideal S256x349 .f32) (x2 : Vec Ideal S349 .f32) (j : S2000x349.Idx) :
    k2_pay1 (F := Ideal) x0 x1 x2 j = Cert.Layers.head (R := 2000) (K := 256) (N := 349) x0 x1 x2 j := by
  unfold k2_pay1 Cert.Layers.head Cert.Layers.dotAt
  rw [shapeCast_self]
  exact congrArg₂ (· + ·) (matmul_apply _ _ j) (bias_apply x2 j)

/-! ## From the blocks to the array -/

variable (V : (c : Dev nD) → (b : Ref sig .tc) → Buf (Elt Ideal) ((c : Thread nD τ).loc b))

theorem zero_off2 : (![0, 0] : Fin 2 → Nat) = fun _ => 0 := funext fun a => match a with
  | ⟨0, _⟩ => rfl
  | ⟨1, _⟩ => rfl
theorem zero_off1 : (![0] : Fin 1 → Nat) = fun _ => 0 := funext fun a => match a with
  | ⟨0, _⟩ => rfl

/-- The index maps over the grid: at point `t` the features' and the output's blocks are the `t`-th block of rows,
    all columns; the weights and the bias are whole. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The head of a block of rows at `j` is the head of the whole arrays at `i`, when the block's row `j 0` is the
    array's row `i 0`, the columns agree, and the weights and the bias are the same. -/
theorem head_block_eq (X0 : S100000x256.Idx → EReal) (X1 : S256x349.Idx → EReal) (X2 : S349.Idx → EReal)
    (x0 : S2000x256.Idx → EReal) (x1 : S256x349.Idx → EReal) (x2 : S349.Idx → EReal) (j : S2000x349.Idx) (i : S100000x349.Idx)
    (h0 : ∀ k : Fin 256, x0 (Cert.Layers.rowAt j k) = X0 (Cert.Layers.rowAt i k))
    (h1 : ∀ k : Fin 256, x1 (Cert.Layers.colAt j k) = X1 (Cert.Layers.colAt i k))
    (h2 : x2 (Cert.Layers.biasAt j) = X2 (Cert.Layers.biasAt i)) :
    Cert.Layers.head (R := 2000) (K := 256) (N := 349) x0 x1 x2 j
      = Cert.Layers.head (R := 100000) (K := 256) (N := 349) X0 X1 X2 i := by
  unfold Cert.Layers.head Cert.Layers.dotAt
  rw [h2]
  exact congrArg (· + X2 (Cert.Layers.biasAt i)) (Finset.sum_congr rfl fun k _ => by rw [h0 k, h1 k])

/-- What point `t` writes back is block `t` of the head of the arrays as the region finds them. -/
theorem flushed_eq (c : Dev nD) (t : Fin cfg2.N) :
    (dat2 (F := Ideal) V c).flushed 3 t = ((cfg2.win 3).blk t).view.read (Elt Ideal)
      (Cert.Layers.head (R := 100000) (K := 256) (N := 349) (V c main_v43) (V c main_arg8) (V c main_arg9)) := by
  show (cfg2.win 3).cut (grid2.coords t) ((dat2 V c).after 3 t) = _
  rw [after2_3]
  unfold out2_3
  rw [View.canon_unit_zero zero_off2]
  simp only [View.ld_unit_zero (S := S2000x256) zero_off2, View.ld_unit_zero (S := S256x349) zero_off2, View.ld_unit_zero (S := S349) zero_off1]
  obtain ⟨e00, e01, e10, e11, e20, e30, e31⟩ := idx_facts t
  funext j
  show k2_pay1 (F := Ideal) (iblk2 V c 0 t) (iblk2 V c 1 t) (iblk2 V c 2 t) j
    = Cert.Layers.head (R := 100000) (K := 256) (N := 349) (V c main_v43) (V c main_arg8) (V c main_arg9) (((cfg2.win 3).blk t).view.emb j)
  rw [pay_apply]
  refine head_block_eq (V c main_v43) (V c main_arg8) (V c main_arg9) (iblk2 V c 0 t) (iblk2 V c 1 t) (iblk2 V c 2 t) j
    (((cfg2.win 3).blk t).view.emb j) (fun k => ?_) (fun k => ?_) ?_
  · show V c main_v43 (((cfg2.win 0).blk t).view.emb (Cert.Layers.rowAt j k)) = V c main_v43 (Cert.Layers.rowAt (((cfg2.win 3).blk t).view.emb j) k)
    refine congrArg (V c main_v43) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * k.val = k.val; omega
  · show V c main_arg8 (((cfg2.win 1).blk t).view.emb (Cert.Layers.colAt j k)) = V c main_arg8 (Cert.Layers.colAt (((cfg2.win 3).blk t).view.emb j) k)
    refine congrArg (V c main_arg8) (funext fun a => Fin.ext ?_)
    match a with
    | ⟨0, _⟩ => show win2_1.index t (0 : Fin 2) * 256 + 1 * k.val = k.val; omega
    | ⟨1, _⟩ => show win2_1.index t (1 : Fin 2) * 349 + 1 * (j 1).val = win2_3.index t (1 : Fin 2) * 349 + 1 * (j 1).val; omega
  · show V c main_arg9 (((cfg2.win 2).blk t).view.emb (Cert.Layers.biasAt j)) = V c main_arg9 (Cert.Layers.biasAt (((cfg2.win 3).blk t).view.emb j))
    refine congrArg (V c main_arg9) (funext fun a => Fin.ext ?_)
    match a with
    | ⟨0, _⟩ => show win2_2.index t (0 : Fin 1) * 349 + 1 * (j 1).val = win2_3.index t (1 : Fin 2) * 349 + 1 * (j 1).val; omega

/-- An index of the output array is in point `t`'s block iff each coordinate is in the block's range on its axis. -/
theorem mem_blk (t : Fin cfg2.N) (i : S100000x349.Idx) :
    i ∈ ((cfg2.win 3).blk t).view.set ↔ ∀ a : Fin 2, win2_3.index t a * S2000x349.size a ≤ (i a).val ∧ (i a).val < win2_3.index t a * S2000x349.size a + S2000x349.size a := by
  show i ∈ ((View.whole main_v44).slice (win2_3.rect t)).set ↔ _
  rw [View.set_slice_whole, Rect.mem_set_unit]
  exact Iff.rfl

/-- Row `r` of the output is in the block of point `r / 2000`: the fifty blocks of 2000 rows cover the array. -/
theorem cover (i : S100000x349.Idx) :
    ∃ t : Fin cfg2.N, (cfg2.win 3).flush t = true ∧ i ∈ ((cfg2.win 3).blk t).view.set := by
  have hi0 : (i 0).val < 100000 := (i 0).isLt
  have hi1 : (i 1).val < 349 := (i 1).isLt
  obtain ⟨t, ht⟩ : ∃ t : Fin cfg2.N, t.val = (i 0).val / 2000 :=
    ⟨⟨(i 0).val / 2000, by have h : cfg2.N = 50 := N_2; omega⟩, rfl⟩
  obtain ⟨-, -, -, -, -, e30, e31⟩ := idx_facts t
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 349 ≤ (i 1).val ∧ (i 1).val < win2_3.index t (1 : Fin 2) * 349 + 349; omega

/-- The output array after the region: the head of the second layer's output, the head's weights and its bias. -/
theorem final (c : Dev nD) :
    (dat2 (F := Ideal) V c).arrAt 3 cfg2.N
      = Cert.Layers.head (R := 100000) (K := 256) (N := 349) (V c main_v43) (V c main_arg8) (V c main_arg9) :=
  (dat2 (F := Ideal) V c).arrAt_eq_of_cover 3
    (Cert.Layers.head (R := 100000) (K := 256) (N := 349) (V c main_v43) (V c main_arg8) (V c main_arg9))
    (fun t _ => flushed_eq V c t) cover

end Cert.KernelIdeal.Region2

end
-- ==== Proof.RefValue.lean ====
import proofs.«151660_j54863912239768_1_alg».proof.Proof.Gen.ReferenceIdeal.Run
import proofs.«151660_j54863912239768_1_alg».proof.Proof.Gen.ReferenceIdeal.Read
import proofs.«151660_j54863912239768_1_alg».proof.Proof.Layers
import Idealize.ShloMosaic.PureOps.Ideal.Laws

/-!
# The reference, layer by layer

The reference computes each convolution layer as `relu (agg · Wn + h · Ws + b)` with two host
matrix products, and the head as `h · W + b`. Read at an index over the extended reals each host
product is the finite sum over the contracted axis, a broadcast bias is the bias at the column, and
`relu` is the maximum with zero: so each stage is the corresponding layer function of `Layers`,
applied to the stage before it.
-/

noncomputable section

namespace Cert.ReferenceIdeal.RefValue

open Cert.ReferenceIdeal Cert.ReferenceIdeal.Read Idealize.ShloMosaic Idealize.ShloMosaic.TcCoe Cert.Layers

/-! ## The printed index functions are the layers' own -/

theorem row23 (i : S100000x256.Idx) (k : Fin 128) : lidx_main_v23 i k = rowAt (R := 100000) (N := 256) (K := 128) i k :=
  funext fun a => Fin.ext (by match a with | ⟨0, _⟩ => rfl | ⟨1, _⟩ => rfl)
theorem col23 (i : S100000x256.Idx) (k : Fin 128) : ridx_main_v23 i k = colAt (R := 100000) (N := 256) (K := 128) i k :=
  funext fun a => Fin.ext (by match a with | ⟨0, _⟩ => rfl | ⟨1, _⟩ => rfl)
theorem row24 (i : S100000x256.Idx) (k : Fin 128) : lidx_main_v24 i k = rowAt (R := 100000) (N := 256) (K := 128) i k :=
  funext fun a => Fin.ext (by match a with | ⟨0, _⟩ => rfl | ⟨1, _⟩ => rfl)
theorem col24 (i : S100000x256.Idx) (k : Fin 128) : ridx_main_v24 i k = colAt (R := 100000) (N := 256) (K := 128) i k :=
  funext fun a => Fin.ext (by match a with | ⟨0, _⟩ => rfl | ⟨1, _⟩ => rfl)
theorem bias27 (i : S100000x256.Idx) : idx_main_v26 (idx_main_v27 i) = biasAt (R := 100000) (N := 256) i :=
  funext fun a => Fin.ext (by match a with | ⟨0, _⟩ => rfl)

theorem row49 (i : S100000x256.Idx) (k : Fin 256) : lidx_main_v49 i k = rowAt (R := 100000) (N := 256) (K := 256) i k :=
  funext fun a => Fin.ext (by match a with | ⟨0, _⟩ => rfl | ⟨1, _⟩ => rfl)
theorem col49 (i : S100000x256.Idx) (k : Fin 256) : ridx_main_v49 i k = colAt (R := 100000) (N := 256) (K := 256) i k :=
  funext fun a => Fin.ext (by match a with | ⟨0, _⟩ => rfl | ⟨1, _⟩ => rfl)
theorem row50 (i : S100000x256.Idx) (k : Fin 256) : lidx_main_v50 i k = rowAt (R := 100000) (N := 256) (K := 256) i k :=
  funext fun a => Fin.ext (by match a with | ⟨0, _⟩ => rfl | ⟨1, _⟩ => rfl)
theorem col50 (i : S100000x256.Idx) (k : Fin 256) : ridx_main_v50 i k = colAt (R := 100000) (N := 256) (K := 256) i k :=
  funext fun a => Fin.ext (by match a with | ⟨0, _⟩ => rfl | ⟨1, _⟩ => rfl)
theorem bias53 (i : S100000x256.Idx) : idx_main_v52 (idx_main_v53 i) = biasAt (R := 100000) (N := 256) i :=
  funext fun a => Fin.ext (by match a with | ⟨0, _⟩ => rfl)

theorem row56 (i : S100000x349.Idx) (k : Fin 256) : lidx_main_v56 i k = rowAt (R := 100000) (N := 349) (K := 256) i k :=
  funext fun a => Fin.ext (by match a with | ⟨0, _⟩ => rfl | ⟨1, _⟩ => rfl)
theorem col56 (i : S100000x349.Idx) (k : Fin 256) : ridx_main_v56 i k = colAt (R := 100000) (N := 349) (K := 256) i k :=
  funext fun a => Fin.ext (by match a with | ⟨0, _⟩ => rfl | ⟨1, _⟩ => rfl)
theorem bias58 (i : S100000x349.Idx) : idx_main_v57 (idx_main_v58 i) = biasAt (R := 100000) (N := 349) i :=
  funext fun a => Fin.ext (by match a with | ⟨0, _⟩ => rfl)

/-! ## The stages -/

/-- The first layer's output is `sage` of the aggregated features, the features, the two weight
    matrices and the bias. -/
theorem layer1 (x0 : Vec Ideal S100000x128 .f32) (x1 : Vec Ideal S2x500000 .i32) (x2 x3 : Vec Ideal S128x256 .f32)
    (x4 : Vec Ideal S256 .f32) :
    val_main_v29 (F := Ideal) x0 x1 x2 x3 x4
      = sage (R := 100000) (K := 128) (N := 256) (val_main_v22 (F := Ideal) x0 x1) x0 x3 x2 x4 := by
  funext i
  rw [val_main_v29_apply, val_main_v28_apply, val_main_v25_apply, val_main_v23_apply, val_main_v24_apply,
    val_main_v27_apply, val_main_v26_apply, val_main_call0_v0_apply, val_main_call0_cst_apply]
  simp only [row23, col23, row24, col24, bias27, Ideal.maximumf_def, Ideal.addf_def]
  show max _ (Ideal.ofBits .f32 0x00000000#32) = _
  rw [Ideal.ofBits_zero_f32]
  rfl

/-- The second layer's output is `sage` of the aggregated first-layer output, that output, the
    second layer's weight matrices and its bias. -/
theorem layer2 (x0 : Vec Ideal S100000x128 .f32) (x1 : Vec Ideal S2x500000 .i32) (x2 x3 : Vec Ideal S128x256 .f32)
    (x4 : Vec Ideal S256 .f32) (x5 x6 : Vec Ideal S256x256 .f32) (x7 : Vec Ideal S256 .f32) :
    val_main_v55 (F := Ideal) x0 x1 x2 x3 x4 x5 x6 x7
      = sage (R := 100000) (K := 256) (N := 256) (val_main_v48 (F := Ideal) x0 x1 x2 x3 x4)
          (val_main_v29 (F := Ideal) x0 x1 x2 x3 x4) x6 x5 x7 := by
  funext i
  rw [val_main_v55_apply, val_main_v54_apply, val_main_v51_apply, val_main_v49_apply, val_main_v50_apply,
    val_main_v53_apply, val_main_v52_apply, val_main_call1_v0_apply, val_main_call1_cst_apply]
  simp only [row49, col49, row50, col50, bias53, Ideal.maximumf_def, Ideal.addf_def]
  show max _ (Ideal.ofBits .f32 0x00000000#32) = _
  rw [Ideal.ofBits_zero_f32]
  rfl

/-- The result is `head` of the second layer's output, the head's weights and its bias. -/
theorem result (x0 : Vec Ideal S100000x128 .f32) (x1 : Vec Ideal S2x500000 .i32) (x2 x3 : Vec Ideal S128x256 .f32)
    (x4 : Vec Ideal S256 .f32) (x5 x6 : Vec Ideal S256x256 .f32) (x7 : Vec Ideal S256 .f32)
    (x8 : Vec Ideal S256x349 .f32) (x9 : Vec Ideal S349 .f32) :
    val_main_v59 (F := Ideal) x0 x1 x2 x3 x4 x5 x6 x7 x8 x9
      = head (R := 100000) (K := 256) (N := 349) (val_main_v55 (F := Ideal) x0 x1 x2 x3 x4 x5 x6 x7) x8 x9 := by
  funext i
  rw [val_main_v59_apply, val_main_v56_apply, val_main_v58_apply, val_main_v57_apply]
  simp only [row56, col56, bias58, Ideal.addf_def]
  rfl

end Cert.ReferenceIdeal.RefValue

end
-- ==== Proof.KernelValue.lean ====
import proofs.«151660_j54863912239768_1_alg».proof.Proof.HostA
import proofs.«151660_j54863912239768_1_alg».proof.Proof.HostB
import proofs.«151660_j54863912239768_1_alg».proof.Proof.Region0
import proofs.«151660_j54863912239768_1_alg».proof.Proof.Region1
import proofs.«151660_j54863912239768_1_alg».proof.Proof.Region2
import proofs.«151660_j54863912239768_1_alg».proof.Proof.RefValue

/-!
# What the kernel program leaves in its result array

The result array is written by the last region only: it ends as the head applied to the second
region's output. That output is the convolution layer applied to the aggregated first-layer output
and the first-layer output, which the first region wrote as the convolution layer of the aggregated
features and the features. Each layer function is the reference's stage of the same operands, and
the aggregations are the reference's own operations, so stage by stage the kernel's arrays are the
reference's stages of the launch arguments.
-/

set_option maxRecDepth 16384

noncomputable section

namespace Cert.KernelIdeal.KernelValue

open Cert.KernelIdeal Cert.KernelIdeal.Gen Idealize.ShloMosaic Idealize.ShloMosaic.TcCoe Idealize.SL.Sem
open Cert.ReferenceIdeal.Read Cert.KernelIdeal.HostA Cert.KernelIdeal.HostB
open Idealize.ShloMosaic.Pipeline (Dat)

variable (m : (ℓ : Loc nD τ sig) → Buf (Elt Ideal) ℓ) (ρ : Dev nD → PrngReg)

/-- After the first region its output array holds the reference's first-layer stage. -/
theorem layer1_eq (c : Dev nD) :
    V2 m ρ c main_v23 = val_main_v29 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (W2_arr m ρ c 5).trans ((Cert.KernelIdeal.Region0.final (V1 m ρ) c).trans ?_)
  rw [agg1_eq m ρ c, arg0_eq m ρ c, arg3_eq m ρ c, arg2_eq m ρ c, arg4_eq m ρ c]
  exact (Cert.ReferenceIdeal.RefValue.layer1 _ _ _ _ _).symm

/-- After the second region its output array holds the reference's second-layer stage. -/
theorem layer2_eq (c : Dev nD) :
    V4 m ρ c main_v43 = val_main_v55 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  refine (W4_arr m ρ c 5).trans ((Cert.KernelIdeal.Region1.final (V3 m ρ) c).trans ?_)
  rw [agg2_eq m ρ c, h1_kept m ρ c, layer1_eq m ρ c, agg2_stage, arg6_eq m ρ c, arg5_eq m ρ c, arg7_eq m ρ c]
  exact (Cert.ReferenceIdeal.RefValue.layer2 _ _ _ _ _ _ _ _).symm

/-- After the last region the result array holds the reference's result stage. -/
theorem result_eq (c : Dev nD) :
    W5 m ρ c (Proc.devRef .tc main_v44) = val_main_v59 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7))
      (m ((c : Thread nD τ).loc main_arg8)) (m ((c : Thread nD τ).loc main_arg9)) := by
  refine (W5_arr m ρ c 3).trans ((Cert.KernelIdeal.Region2.final (V4 m ρ) c).trans ?_)
  rw [layer2_eq m ρ c, arg8_eq m ρ c, arg9_eq m ρ c]
  exact (Cert.ReferenceIdeal.RefValue.result _ _ _ _ _ _ _ _ _ _).symm

end Cert.KernelIdeal.KernelValue

end
-- ==== Proof.lean ====
/-
  A two-layer graph convolution with a linear head, over 100000 nodes and 500000 edges. Each layer
  aggregates the node features along the edges (gather at the sources, scatter-add at the
  destinations, divide by the clamped in-degree: host operations in both programs) and then computes
  `relu (agg · Wn + h · Ws + b)`; the head computes `h · W + b`. The kernel program computes the three
  dense stages in three pipelined regions over blocks of 2000 rows, with matrix products accumulated
  into zero; the reference computes them with whole-array host products.

  Over the extended reals a matrix product, blocked or not, is the finite sum over the contracted
  axis, so each region leaves in its output array the layer function of `Layers` of the whole input
  arrays (`Region0`, `Region1`, `Region2`: the block written at a grid point is that function's block,
  and the fifty blocks cover the array), and each reference stage is the same function of the same
  operands (`RefValue`). The aggregations are the same operations in both programs (`HostA`,
  `HostB`). Hence the result arrays agree (`KernelValue`), whatever the inputs: no finiteness is used.
  The ideal pass rewrote nothing, so `preserves` is trivial; the frames are the generated ones, the
  reference's being its generated run with the result dropped.
-/
import proofs.«151660_j54863912239768_1_alg».proof.Defs
import proofs.«151660_j54863912239768_1_alg».proof.Proof.Gen.Kernel
import proofs.«151660_j54863912239768_1_alg».proof.Proof.Gen.Kernel.Skeleton
import proofs.«151660_j54863912239768_1_alg».proof.Proof.Gen.Kernel.Launch
import proofs.«151660_j54863912239768_1_alg».proof.Proof.Gen.Kernel.Points
import proofs.«151660_j54863912239768_1_alg».proof.Proof.Gen.Kernel.Frame
import proofs.«151660_j54863912239768_1_alg».proof.Proof.Gen.KernelIdeal
import proofs.«151660_j54863912239768_1_alg».proof.Proof.Gen.KernelIdeal.Skeleton
import proofs.«151660_j54863912239768_1_alg».proof.Proof.Gen.KernelIdeal.Launch
import proofs.«151660_j54863912239768_1_alg».proof.Proof.Gen.KernelIdeal.Points
import proofs.«151660_j54863912239768_1_alg».proof.Proof.Gen.KernelIdeal.Frame
import proofs.«151660_j54863912239768_1_alg».proof.Proof.Gen.ReferenceIdeal
import proofs.«151660_j54863912239768_1_alg».proof.Proof.Gen.ReferenceIdeal.Run
import proofs.«151660_j54863912239768_1_alg».proof.Proof.Gen.ReferenceIdeal.Read
import proofs.«151660_j54863912239768_1_alg».proof.Proof.Gen.Pre_finite_inputs
import proofs.«151660_j54863912239768_1_alg».proof.Proof.RunNamed
import proofs.«151660_j54863912239768_1_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the launch arguments in their result
    arrays: the kernel's by `KernelValue.result_eq`, the reference's by its run; the arguments agree. -/
theorem algebraic : Cert.algebraic_KernelIdeal_ReferenceIdeal := by
  intro m ρ m' ρ' _ hagree
  refine ⟨fun c => Cert.KernelIdeal.Gen.W5 m ρ c (Proc.devRef .tc Cert.KernelIdeal.main_v44),
    Cert.KernelIdeal.Named.run_named (F := Ideal) m ρ, ?_⟩
  refine (θ_run Cert.ReferenceIdeal.defs _ _).mono (fun _ h c => ⟨(h c).1.trans ?_, (h c).2⟩)
    (Cert.ReferenceIdeal.Value.run (F := Ideal) m' ρ')
  refine ((Cert.ReferenceIdeal.Read.val_main_v59_eq m' c).trans ?_).trans (Cert.KernelIdeal.KernelValue.result_eq m ρ c).symm
  obtain ⟨e0, e1, e2, e3, e4, e5, e6, e7, e8, e9⟩ := hagree c
  rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
